-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4x2048x2048 : Shape := ⟨3, ![4, 2048, 2048]⟩
abbrev S4x2048 : Shape := ⟨2, ![4, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S_S4x2048 : S_.BroadcastsInDim S4x2048 (![] : Fin 0 → Fin S4x2048.rank)
  reducesTo_S4x2048_S_d0_1 : S4x2048.ReducesTo [0, 1] S_

variable [Facts]

def fn_part1 {F : FTy → Type} [FloatOps F] (main_arg4 : FVec F S4x2048 .f32) (main_arg5 : FVec F S4x2048x2048 .f32) (main_arg6 : FVec F S4x2048 .f32) (main_v13 : IVec S_ 1) (main_v16 : IVec S4x2048x2048 1) : IVec S_ 1 :=
  let main_c_5 : IVec S_ 1 := constantI S_ 1 1#1
  let main_v17 : IVec S_ 1 := (fun x v => Host.reduce IntOp.andi x v reducesTo_S4x2048x2048_S_d0_1_2 h_S_) main_v16 main_c_5
  let main_v18 : IVec S_ 1 := andi main_v13 main_v17
  let main_v19 : FVec F S4x2048 .f32 := Host.absf main_arg4
  let main_cst_6 : FVec F S_ .f32 := constant S_ .f32 0x7F800000#32
  let main_v20 : FVec F S4x2048 .f32 := broadcastInDim S4x2048 ![] bcast_S_S4x2048 main_cst_6
  let main_v21 : IVec S4x2048 1 := cmpf .olt main_v19 main_v20
  let main_c_7 : IVec S_ 1 := constantI S_ 1 1#1
  let main_v22 : IVec S_ 1 := (fun x v => Host.reduce IntOp.andi x v reducesTo_S4x2048_S_d0_1 h_S_) main_v21 main_c_7
  let main_v23 : IVec S_ 1 := andi main_v18 main_v22
  let main_v24 : FVec F S4x2048x2048 .f32 := Host.absf main_arg5
  let main_cst_8 : FVec F S_ .f32 := constant S_ .f32 0x7F800000#32
  let main_v25 : FVec F S4x2048x2048 .f32 := broadcastInDim S4x2048x2048 ![] bcast_S_S4x2048x2048 main_cst_8
  let main_v26 : IVec S4x2048x2048 1 := cmpf .olt main_v24 main_v25
  let main_c_9 : IVec S_ 1 := constantI S_ 1 1#1
  let main_v27 : IVec S_ 1 := (fun x v => Host.reduce IntOp.andi x v reducesTo_S4x2048x2048_S_d0_1_2 h_S_) main_v26 main_c_9
  let main_v28 : IVec S_ 1 := andi main_v23 main_v27
  let main_v29 : FVec F S4x2048 .f32 := Host.absf main_arg6
  let main_cst_10 : FVec F S_ .f32 := constant S_ .f32 0x7F800000#32
  let main_v30 : FVec F S4x2048 .f32 := broadcastInDim S4x2048 ![] bcast_S_S4x2048 main_cst_10
  let main_v31 : IVec S4x2048 1 := cmpf .olt main_v29 main_v30
  let main_c_11 : IVec S_ 1 := constantI S_ 1 1#1
  let main_v32 : IVec S_ 1 := (fun x v => Host.reduce IntOp.andi x v reducesTo_S4x2048_S_d0_1 h_S_) main_v31 main_c_11
  let main_v33 : IVec S_ 1 := andi main_v28 main_v32
  main_v33

def fn {F : FTy → Type} [FloatOps F] (main_arg0 : FVec F S4096x2048 .f32) (main_arg1 : FVec F S4096x2048 .f32) (main_arg2 : FVec F S4096x2048 .f32) (main_arg3 : FVec F S4x2048x2048 .f32) (main_arg4 : FVec F S4x2048 .f32) (main_arg5 : FVec F S4x2048x2048 .f32) (main_arg6 : FVec F S4x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4x2048x2048 .f32 := Host.absf main_arg3
  let main_cst_4 : FVec F S_ .f32 := constant S_ .f32 0x7F800000#32
  let main_v15 : FVec F S4x2048x2048 .f32 := broadcastInDim S4x2048x2048 ![] bcast_S_S4x2048x2048 main_cst_4
  let main_v16 : IVec S4x2048x2048 1 := cmpf .olt main_v14 main_v15
  fn_part1 (F := F) main_arg4 main_arg5 main_arg6 main_v13 main_v16
-- ==== Kernel.lean ====
abbrev S4096x2048 : Shape := ⟨2, ![4096, 2048]⟩
abbrev S4x2048x2048 : Shape := ⟨3, ![4, 2048, 2048]⟩
abbrev S4x2048 : Shape := ⟨2, ![4, 2048]⟩
abbrev S512x2048 : Shape := ⟨2, ![512, 2048]⟩
abbrev S512x128 : Shape := ⟨2, ![512, 128]⟩
abbrev S4x2048x128 : Shape := ⟨3, ![4, 2048, 128]⟩
abbrev S4x128 : Shape := ⟨2, ![4, 128]⟩
abbrev S1x2048x128 : Shape := ⟨3, ![1, 2048, 128]⟩
abbrev S2048x128 : Shape := ⟨2, ![2048, 128]⟩
abbrev S1x128 : Shape := ⟨2, ![1, 128]⟩
abbrev S128 : Shape := ⟨1, ![128]⟩

abbrev nBuf : Space → Nat
  | .hbm => 11
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4x2048x2048, .f32⟩
  | .hbm, ⟨4, _⟩ => ⟨S4x2048, .f32⟩
  | .hbm, ⟨5, _⟩ => ⟨S4x2048x2048, .f32⟩
  | .hbm, ⟨6, _⟩ => ⟨S4x2048, .f32⟩
  | .hbm, ⟨7, _⟩ => ⟨S4x2048x2048, .f32⟩
  | .hbm, ⟨8, _⟩ => ⟨S4x2048x2048, .f32⟩
  | .hbm, ⟨9, _⟩ => ⟨S4096x2048, .f32⟩
  | .hbm, ⟨10, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x128, .f32⟩
  | .local _ .vmem, ⟨5, _⟩ => ⟨S512x128, .f32⟩
  | .local _ .vmem, ⟨6, _⟩ => ⟨S4x2048x128, .f32⟩
  | .local _ .vmem, ⟨7, _⟩ => ⟨S4x2048x128, .f32⟩
  | .local _ .vmem, ⟨8, _⟩ => ⟨S4x2048x128, .f32⟩
  | .local _ .vmem, ⟨9, _⟩ => ⟨S4x2048x128, .f32⟩
  | .local _ .vmem, ⟨10, _⟩ => ⟨S4x128, .f32⟩
  | .local _ .vmem, ⟨11, _⟩ => ⟨S4x128, .f32⟩
  | .local _ .vmem, ⟨12, _⟩ => ⟨S4x128, .f32⟩
  | .local _ .vmem, ⟨13, _⟩ => ⟨S4x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  transposes_S4x2048x2048_S4x2048x2048_0_2_1 : S4x2048x2048.Transposes [0, 2, 1] S4x2048x2048
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S4x2048x128_S1x2048x128_0_0_0 : ∀ a, (![0, 0, 0] : Fin 3 → Nat) a + S1x2048x128.size a ≤ S4x2048x128.size a
  h_S1x2048x128 : 0 < S1x2048x128.numel
  shapeCasts_S1x2048x128_S2048x128 : S1x2048x128.ShapeCasts S2048x128
  inb_S4x128_S1x128_0_0 : ∀ a, (![0, 0] : Fin 2 → Nat) a + S1x128.size a ≤ S4x128.size a
  h_S1x128 : 0 < S1x128.numel
  shapeCasts_S1x128_S128 : S1x128.ShapeCasts S128
  shapeCasts_S128_S1x128 : S128.ShapeCasts S1x128
  broadcasts_S1x128_S512x128 : S1x128.Broadcasts S512x128
  inb_S4x2048x128_S1x2048x128_1_0_0 : ∀ a, (![1, 0, 0] : Fin 3 → Nat) a + S1x2048x128.size a ≤ S4x2048x128.size a
  inb_S4x128_S1x128_1_0 : ∀ a, (![1, 0] : Fin 2 → Nat) a + S1x128.size a ≤ S4x128.size a
  inb_S4x2048x128_S1x2048x128_2_0_0 : ∀ a, (![2, 0, 0] : Fin 3 → Nat) a + S1x2048x128.size a ≤ S4x2048x128.size a
  inb_S4x128_S1x128_2_0 : ∀ a, (![2, 0] : Fin 2 → Nat) a + S1x128.size a ≤ S4x128.size a
  inb_S4x2048x128_S1x2048x128_3_0_0 : ∀ a, (![3, 0, 0] : Fin 3 → Nat) a + S1x2048x128.size a ≤ S4x2048x128.size a
  inb_S4x128_S1x128_3_0 : ∀ a, (![3, 0] : Fin 2 → Nat) a + S1x128.size a ≤ S4x128.size a
  inb_S512x128_S512x128_0_0 : ∀ a, (![0, 0] : Fin 2 → Nat) a + S512x128.size a ≤ S512x128.size a
  h_S512x128 : 0 < S512x128.numel
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x2048.size a
  hwx0_2 : ∀ i : grid0.Coords, EltTy.bits .f32 = 32 ∨ (Rect.block (s := S4096x2048) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x2048x128.size a ≤ S4x2048x2048.size a
  hwx0_3 : ∀ i : grid0.Coords, EltTy.bits .f32 = 32 ∨ (Rect.block (s := S4x2048x2048) S4x2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x2048x128.size a ≤ S4x2048x2048.size a
  hwx0_4 : ∀ i : grid0.Coords, EltTy.bits .f32 = 32 ∨ (Rect.block (s := S4x2048x2048) S4x2048x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x128.size a ≤ S4x2048.size a
  hwx0_5 : ∀ i : grid0.Coords, EltTy.bits .f32 = 32 ∨ (Rect.block (s := S4x2048) S4x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x128.size a ≤ S4x2048.size a
  hwx0_6 : ∀ i : grid0.Coords, EltTy.bits .f32 = 32 ∨ (Rect.block (s := S4x2048) S4x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S4096x2048.size a
  hwx0_7 : ∀ i : grid0.Coords, EltTy.bits .f32 = 32 ∨ (Rect.block (s := S4096x2048) S512x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x128.size a ≤ S4096x2048.size a
  hwx0_8 : ∀ i : grid0.Coords, EltTy.bits .f32 = 32 ∨ (Rect.block (s := S4096x2048) S512x128.size (cc0_transform_8 i) (hinb0_8 i)).WholeWords (EltTy.packing .f32)

variable [Facts₀]

def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4x2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4x2048x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S4x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_0) S512x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_1) S512x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S4x2048x2048 : Shape := ⟨3, ![4, 2048, 2048]⟩
abbrev S4x2048 : Shape := ⟨2, ![4, 2048]⟩
abbrev S4x2048x4096 : Shape := ⟨3, ![4, 2048, 4096]⟩
abbrev S4x4096x2048 : Shape := ⟨3, ![4, 4096, 2048]⟩
abbrev S4x1x2048 : Shape := ⟨3, ![4, 1, 2048]⟩
abbrev S1x4096x2048 : Shape := ⟨3, ![1, 4096, 2048]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4x2048x2048, .f32⟩
  | .hbm, ⟨4, _⟩ => ⟨S4x2048, .f32⟩
  | .hbm, ⟨5, _⟩ => ⟨S4x2048x2048, .f32⟩
  | .hbm, ⟨6, _⟩ => ⟨S4x2048, .f32⟩
  | .hbm, ⟨7, _⟩ => ⟨S4x2048x4096, .f32⟩
  | .hbm, ⟨8, _⟩ => ⟨S4x4096x2048, .f32⟩
  | .hbm, ⟨9, _⟩ => ⟨S4x1x2048, .f32⟩
  | .hbm, ⟨10, _⟩ => ⟨S4x4096x2048, .f32⟩
  | .hbm, ⟨11, _⟩ => ⟨S4x4096x2048, .f32⟩
  | .hbm, ⟨12, _⟩ => ⟨S4x2048x4096, .f32⟩
  | .hbm, ⟨13, _⟩ => ⟨S4x4096x2048, .f32⟩
  | .hbm, ⟨14, _⟩ => ⟨S4x4096x2048, .f32⟩
  | .hbm, ⟨15, _⟩ => ⟨S4x1x2048, .f32⟩
  | .hbm, ⟨16, _⟩ => ⟨S4x4096x2048, .f32⟩
  | .hbm, ⟨17, _⟩ => ⟨S4x4096x2048, .f32⟩
  | .hbm, ⟨18, _⟩ => ⟨S1x4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S1x4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S1x4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S1x4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  transposes_S4x2048x4096_S4x4096x2048_0_2_1 : S4x2048x4096.Transposes [0, 2, 1] S4x4096x2048
  bcast_S4x2048_S4x1x2048_0_2 : S4x2048.BroadcastsInDim S4x1x2048 (![0, 2] : Fin 2 → Fin S4x1x2048.rank)
  bcast_S4x1x2048_S4x4096x2048_0_1_2 : S4x1x2048.BroadcastsInDim S4x4096x2048 (![0, 1, 2] : Fin 3 → Fin S4x4096x2048.rank)
  slices_S4x4096x2048_S1x4096x2048_0_0_0 : S4x4096x2048.Slices ![0, 0, 0] S1x4096x2048
  shapeCasts_S1x4096x2048_S4096x2048 : S1x4096x2048.ShapeCasts S4096x2048
  bcast_S_S4096x2048 : S_.BroadcastsInDim S4096x2048 (![] : Fin 0 → Fin S4096x2048.rank)
  slices_S4x4096x2048_S1x4096x2048_1_0_0 : S4x4096x2048.Slices ![1, 0, 0] S1x4096x2048
  slices_S4x4096x2048_S1x4096x2048_2_0_0 : S4x4096x2048.Slices ![2, 0, 0] S1x4096x2048
  slices_S4x4096x2048_S1x4096x2048_3_0_0 : S4x4096x2048.Slices ![3, 0, 0] S1x4096x2048
  dot_S4x2048x2048_S4096x2048_S4x2048x4096_2_1_01_0_n_n_wf : DotDims.WF S4x2048x2048 S4096x2048 S4x2048x4096 [2] [1] [0, 1] [0] [] []

variable [Facts₀]

def dot_S4x2048x2048_S4096x2048_S4x2048x4096_2_1_01_0_n_n : DotDims S4x2048x2048 S4096x2048 S4x2048x4096 where
  lhsContracting := [2]
  rhsContracting := [1]
  lhsNonContracting := [0, 1]
  rhsNonContracting := [0]
  lhsBatch := []
  rhsBatch := []
  wf := dot_S4x2048x2048_S4096x2048_S4x2048x4096_2_1_01_0_n_n_wf

class Facts : Prop extends Facts₀ where

variable [Facts]
-- ==== Proof.LstmSpec.lean ====
/-
  The LSTM cell as one function of its seven argument arrays, over the extended reals.

  For batch row `b` and feature `o`, gate `g` (input, forget, output, candidate: 0, 1, 2, 3) has the
  pre-activation
      gate g b o = Σ_k x[b,k]·Wx[g,o,k] + Σ_k h[b,k]·Wh[g,o,k] + bx[g,o] + bh[g,o],
  the new cell state is  σ(gate 1)·c + σ(gate 0)·tanh(gate 3)  and the new hidden state
  σ(gate 2)·tanh(new cell state), with σ the logistic function. Sums and products of extended reals are
  commutative and associative, so the order in which the four summands of a gate are added, and the order
  of the two factors under each sum, do not matter: `gateRef_eq`.
-/
import Idealize.ShloMosaic.PureOps.Ideal
import Idealize.ShloMosaic.Lib.ValueIdx

noncomputable section

namespace Cert.Lstm

open Idealize.ShloMosaic Idealize.ShloMosaic.ValueIdx

/-- The seven argument arrays: activations and cell state `[4096, 2048]`, the four gates' weights
    `[4, 2048 (out), 2048 (in)]` and biases `[4, 2048]`, for the `x` side and the `h` side. -/
structure Args where
  x : (⟨2, ![4096, 2048]⟩ : Shape).Idx → EReal
  h : (⟨2, ![4096, 2048]⟩ : Shape).Idx → EReal
  c : (⟨2, ![4096, 2048]⟩ : Shape).Idx → EReal
  Wx : (⟨3, ![4, 2048, 2048]⟩ : Shape).Idx → EReal
  bx : (⟨2, ![4, 2048]⟩ : Shape).Idx → EReal
  Wh : (⟨3, ![4, 2048, 2048]⟩ : Shape).Idx → EReal
  bh : (⟨2, ![4, 2048]⟩ : Shape).Idx → EReal

/-- Row `b` of `x` against row `o` of gate `g`'s `x`-side weights. -/
def xDot (I : Args) (g : Fin 4) (b : Fin 4096) (o : Fin 2048) : EReal :=
  ∑ k : Fin 2048, I.x (ix2 b k) * I.Wx (ix3 g o k)

/-- Row `b` of `h` against row `o` of gate `g`'s `h`-side weights. -/
def hDot (I : Args) (g : Fin 4) (b : Fin 4096) (o : Fin 2048) : EReal :=
  ∑ k : Fin 2048, I.h (ix2 b k) * I.Wh (ix3 g o k)

/-- Gate `g`'s pre-activation at `(b, o)`: both products first, then the two biases. -/
def gate (I : Args) (g : Fin 4) (b : Fin 4096) (o : Fin 2048) : EReal :=
  xDot I g b o + hDot I g b o + I.bx (ix2 g o) + I.bh (ix2 g o)

/-- The same four summands in the order `x` product, `x` bias, `h` product, `h` bias, each product with
    the weight as its left factor. -/
def gateRef (I : Args) (g : Fin 4) (b : Fin 4096) (o : Fin 2048) : EReal :=
  (∑ k : Fin 2048, I.Wx (ix3 g o k) * I.x (ix2 b k)) + I.bx (ix2 g o)
    + (∑ k : Fin 2048, I.Wh (ix3 g o k) * I.h (ix2 b k)) + I.bh (ix2 g o)

/-- Addition and multiplication of extended reals commute, so the two orders give one number. -/
theorem gateRef_eq (I : Args) (g : Fin 4) (b : Fin 4096) (o : Fin 2048) : gateRef I g b o = gate I g b o := by
  unfold gateRef gate xDot hDot
  simp only [mul_comm (I.Wx _) (I.x _), mul_comm (I.Wh _) (I.h _)]
  rw [add_right_comm (∑ k : Fin 2048, I.x (ix2 b k) * I.Wx (ix3 g o k)) (I.bx (ix2 g o))]

/-- The new cell state at `i = (b, o)`. -/
def cNew (I : Args) : (⟨2, ![4096, 2048]⟩ : Shape).Idx → EReal := fun i =>
  Ideal.logistic (gate I 1 (i 0) (i 1)) * I.c i + Ideal.logistic (gate I 0 (i 0) (i 1)) * Ideal.tanh (gate I 3 (i 0) (i 1))

/-- The new hidden state at `i = (b, o)`. -/
def hNew (I : Args) : (⟨2, ![4096, 2048]⟩ : Shape).Idx → EReal := fun i =>
  Ideal.logistic (gate I 2 (i 0) (i 1)) * Ideal.tanh (cNew I i)

end Cert.Lstm

end
-- ==== Proof.RefValue.lean ====
/-
  The reference's two results, read index by index, are the LSTM cell of `LstmSpec`.

  The reference contracts the weights' input axis against the activations' (result `[g, o, b]`), swaps the
  last two axes, adds the `x` bias, the `h` product and the `h` bias, slices gate `g` out of the stack
  and applies `1 / (1 + exp (-z))` — which is the logistic function on the extended reals — or `tanh`.
-/
import proofs.«131256_j6365141533233_1_alg».proof.Proof.Gen.ReferenceIdeal.Read
import proofs.«131256_j6365141533233_1_alg».proof.Proof.LstmSpec

noncomputable section

namespace Cert.ReferenceIdeal.RefValue

open Cert.ReferenceIdeal Cert.ReferenceIdeal.Read Idealize.ShloMosaic Idealize.ShloMosaic.TcCoe Idealize.ShloMosaic.ValueIdx Cert.Lstm

/-- The word `0x3F800000` is the number one. -/
theorem ofBits_one : Ideal.ofBits .f32 0x3F800000#32 = 1 := by
  simp [Ideal.ofBits, Ideal.ieee, -EReal.coe_mul]; norm_num

/-- `1 / (1 + exp (-z))` with both ones spelt as that word is the logistic function. -/
theorem logistic_spelt (z : EReal) :
    Ideal.div (Ideal.ofBits .f32 0x3F800000#32) (Ideal.ofBits .f32 0x3F800000#32 + Ideal.exp (-z)) = Ideal.logistic z := by
  rw [ofBits_one]; rfl

variable (x0 x1 x2 : (⟨S4096x2048, .f32⟩ : BufTy).Contents (Elt Ideal)) (x3 : (⟨S4x2048x2048, .f32⟩ : BufTy).Contents (Elt Ideal))
  (x4 : (⟨S4x2048, .f32⟩ : BufTy).Contents (Elt Ideal)) (x5 : (⟨S4x2048x2048, .f32⟩ : BufTy).Contents (Elt Ideal))
  (x6 : (⟨S4x2048, .f32⟩ : BufTy).Contents (Elt Ideal))

/-- The stacked pre-activations at `(g, b, o)`: the four summands in the reference's order. -/
theorem stack_read (g : Fin 4) (b : Fin 4096) (o : Fin 2048) :
    val_main_v10 (F := Ideal) x0 x1 x3 x4 x5 x6 (ix3 g b o) = gate ⟨x0, x1, x2, x3, x4, x5, x6⟩ g b o := by
  rw [← gateRef_eq]
  have el0 : ∀ k : Fin 2048, lidx_main_v0 (idx_main_v1 (ix3 g b o)) k = ix3 g o k := fun k =>
    funext fun a => Fin.ext (by match a with | ⟨0, _⟩ => rfl | ⟨1, _⟩ => rfl | ⟨2, _⟩ => rfl)
  have er0 : ∀ k : Fin 2048, ridx_main_v0 (idx_main_v1 (ix3 g b o)) k = ix2 b k := fun k =>
    funext fun a => Fin.ext (by match a with | ⟨0, _⟩ => rfl | ⟨1, _⟩ => rfl)
  have el5 : ∀ k : Fin 2048, lidx_main_v5 (idx_main_v6 (ix3 g b o)) k = ix3 g o k := fun k =>
    funext fun a => Fin.ext (by match a with | ⟨0, _⟩ => rfl | ⟨1, _⟩ => rfl | ⟨2, _⟩ => rfl)
  have er5 : ∀ k : Fin 2048, ridx_main_v5 (idx_main_v6 (ix3 g b o)) k = ix2 b k := fun k =>
    funext fun a => Fin.ext (by match a with | ⟨0, _⟩ => rfl | ⟨1, _⟩ => rfl)
  have eb4 : idx_main_v2 (idx_main_v3 (ix3 g b o)) = ix2 g o :=
    funext fun a => Fin.ext (by match a with | ⟨0, _⟩ => rfl | ⟨1, _⟩ => rfl)
  have eb6 : idx_main_v8 (idx_main_v9 (ix3 g b o)) = ix2 g o :=
    funext fun a => Fin.ext (by match a with | ⟨0, _⟩ => rfl | ⟨1, _⟩ => rfl)
  rw [val_main_v10_apply, val_main_v7_apply, val_main_v4_apply, val_main_v1_apply, val_main_v0_apply,
    val_main_v3_apply, val_main_v2_apply, val_main_v6_apply, val_main_v5_apply, val_main_v9_apply, val_main_v8_apply]
  simp only [el0, er0, el5, er5, eb4, eb6]
  rfl

/-- Gate `g` sliced out of the stack and flattened back to `[4096, 2048]` reads the stack at `(g, b, o)`. -/
theorem slice0 (b : Fin 4096) (o : Fin 2048) : idx_main_v11 (idx_main_v12 (ix2 b o)) = ix3 (0 : Fin 4) b o := by
  have h0 : b.val < 4096 := b.isLt
  have h1 : o.val < 2048 := o.isLt
  funext a; apply Fin.ext
  match a with
  | ⟨0, _⟩ => rfl
  | ⟨1, _⟩ => show (b.val * 2048 + o.val) / 2048 % 4096 = b.val; omega
  | ⟨2, _⟩ => show (b.val * 2048 + o.val) % 2048 = o.val; omega

theorem slice1 (b : Fin 4096) (o : Fin 2048) : idx_main_v19 (idx_main_v20 (ix2 b o)) = ix3 (1 : Fin 4) b o := by
  have h0 : b.val < 4096 := b.isLt
  have h1 : o.val < 2048 := o.isLt
  funext a; apply Fin.ext
  match a with
  | ⟨0, _⟩ => rfl
  | ⟨1, _⟩ => show (b.val * 2048 + o.val) / 2048 % 4096 = b.val; omega
  | ⟨2, _⟩ => show (b.val * 2048 + o.val) % 2048 = o.val; omega

theorem slice2 (b : Fin 4096) (o : Fin 2048) : idx_main_v27 (idx_main_v28 (ix2 b o)) = ix3 (2 : Fin 4) b o := by
  have h0 : b.val < 4096 := b.isLt
  have h1 : o.val < 2048 := o.isLt
  funext a; apply Fin.ext
  match a with
  | ⟨0, _⟩ => rfl
  | ⟨1, _⟩ => show (b.val * 2048 + o.val) / 2048 % 4096 = b.val; omega
  | ⟨2, _⟩ => show (b.val * 2048 + o.val) % 2048 = o.val; omega

theorem slice3 (b : Fin 4096) (o : Fin 2048) : idx_main_v35 (idx_main_v36 (ix2 b o)) = ix3 (3 : Fin 4) b o := by
  have h0 : b.val < 4096 := b.isLt
  have h1 : o.val < 2048 := o.isLt
  funext a; apply Fin.ext
  match a with
  | ⟨0, _⟩ => rfl
  | ⟨1, _⟩ => show (b.val * 2048 + o.val) / 2048 % 4096 = b.val; omega
  | ⟨2, _⟩ => show (b.val * 2048 + o.val) % 2048 = o.val; omega

/-- The input gate. -/
theorem gate0_read (b : Fin 4096) (o : Fin 2048) :
    val_main_v18 (F := Ideal) x0 x1 x3 x4 x5 x6 (ix2 b o) = Ideal.logistic (gate ⟨x0, x1, x2, x3, x4, x5, x6⟩ 0 b o) := by
  rw [val_main_v18_apply, val_main_v17_apply, val_main_cst_0_apply, val_main_v16_apply, val_main_v15_apply, val_main_cst_apply,
    val_main_v14_apply, val_main_v13_apply, val_main_v12_apply, val_main_v11_apply, slice0, stack_read x0 x1 x2]
  exact logistic_spelt _

/-- The forget gate. -/
theorem gate1_read (b : Fin 4096) (o : Fin 2048) :
    val_main_v26 (F := Ideal) x0 x1 x3 x4 x5 x6 (ix2 b o) = Ideal.logistic (gate ⟨x0, x1, x2, x3, x4, x5, x6⟩ 1 b o) := by
  rw [val_main_v26_apply, val_main_v25_apply, val_main_cst_2_apply, val_main_v24_apply, val_main_v23_apply, val_main_cst_1_apply,
    val_main_v22_apply, val_main_v21_apply, val_main_v20_apply, val_main_v19_apply, slice1, stack_read x0 x1 x2]
  exact logistic_spelt _

/-- The output gate. -/
theorem gate2_read (b : Fin 4096) (o : Fin 2048) :
    val_main_v34 (F := Ideal) x0 x1 x3 x4 x5 x6 (ix2 b o) = Ideal.logistic (gate ⟨x0, x1, x2, x3, x4, x5, x6⟩ 2 b o) := by
  rw [val_main_v34_apply, val_main_v33_apply, val_main_cst_4_apply, val_main_v32_apply, val_main_v31_apply, val_main_cst_3_apply,
    val_main_v30_apply, val_main_v29_apply, val_main_v28_apply, val_main_v27_apply, slice2, stack_read x0 x1 x2]
  exact logistic_spelt _

/-- The candidate. -/
theorem gate3_read (b : Fin 4096) (o : Fin 2048) :
    val_main_v37 (F := Ideal) x0 x1 x3 x4 x5 x6 (ix2 b o) = Ideal.tanh (gate ⟨x0, x1, x2, x3, x4, x5, x6⟩ 3 b o) := by
  rw [val_main_v37_apply, val_main_v36_apply, val_main_v35_apply, slice3, stack_read x0 x1 x2]
  rfl

/-- The reference's second result is the new cell state. -/
theorem cell_eq : val_main_v40 (F := Ideal) x0 x1 x2 x3 x4 x5 x6 = cNew ⟨x0, x1, x2, x3, x4, x5, x6⟩ := by
  funext i
  obtain ⟨b, o, rfl⟩ : ∃ (b : Fin 4096) (o : Fin 2048), i = ix2 b o := ⟨i 0, i 1, eq_ix2 i⟩
  rw [val_main_v40_apply, val_main_v38_apply, val_main_v39_apply, gate1_read x0 x1 x2, gate0_read x0 x1 x2, gate3_read x0 x1 x2]
  rfl

/-- The reference's first result is the new hidden state. -/
theorem hidden_eq : val_main_v42 (F := Ideal) x0 x1 x2 x3 x4 x5 x6 = hNew ⟨x0, x1, x2, x3, x4, x5, x6⟩ := by
  funext i
  obtain ⟨b, o, rfl⟩ : ∃ (b : Fin 4096) (o : Fin 2048), i = ix2 b o := ⟨i 0, i 1, eq_ix2 i⟩
  rw [val_main_v42_apply, val_main_v41_apply, gate2_read x0 x1 x2, cell_eq]
  rfl

end Cert.ReferenceIdeal.RefValue

end
-- ==== Proof.KernelBody.lean ====
/-
  The kernel body's arithmetic, read at one index of the `[512, 128]` block, over the extended reals.

  Each `tpu.matmul` into a zero accumulator is the plain sum over the contracted axis; the narrowing of both
  operands to bf16 is the identity on extended reals; a weight tile `[1, 2048, 128]` cast to `[2048, 128]` is
  read at `(0, k, q)`; a bias row `[1, 128]` cast to `[128]`, back to `[1, 128]` and broadcast over the 512 rows
  is read at `(0, q)`.
-/
import proofs.«131256_j6365141533233_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.TcCoe Idealize.ShloMosaic.ValueIdx

/-! ## The matrix product's index maps: rows of the left operand, columns of the right, one contracted axis -/

theorem lhs_row (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem lhs_contr (i : S512x128.Idx) (q : dot_S512x2048_S2048x128_S512x128_1_0_0_1_n_n.contr.Idx) :
    (dot_S512x2048_S2048x128_S512x128_1_0_0_1_n_n.lhsIdx i q 1).val = (q ⟨0, by decide⟩).val :=
  dot_S512x2048_S2048x128_S512x128_1_0_0_1_n_n.lhsIdx_val_of_single rfl i q
theorem rhs_contr (i : S512x128.Idx) (q : dot_S512x2048_S2048x128_S512x128_1_0_0_1_n_n.contr.Idx) :
    (dot_S512x2048_S2048x128_S512x128_1_0_0_1_n_n.rhsIdx i q 0).val = (q ⟨0, by decide⟩).val :=
  dot_S512x2048_S2048x128_S512x128_1_0_0_1_n_n.rhsIdx_val_of_single rfl i q
theorem rhs_col (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- A `[512, 2048] × [2048, 128]` product into the zero splat, at `(p, q)`: the sum over `k` of row `p` times column `q`. -/
theorem matmul_read {φ₁ φ₂ : FTy} (A : FVec Ideal S512x2048 φ₁) (B : FVec Ideal S2048x128 φ₂) (p : Fin 512) (q : Fin 128) :
    matmul dot_S512x2048_S2048x128_S512x128_1_0_0_1_n_n none A B (constant (F := Ideal) S512x128 .f32 0x00000000#32) (ix2 p q)
      = ∑ k : Fin 2048, A (ix2 p k) * B (ix2 k q) := by
  show FloatOps.matmul dot_S512x2048_S2048x128_S512x128_1_0_0_1_n_n none A B (constant (F := Ideal) S512x128 .f32 0x00000000#32) (ix2 p q) = _
  rw [Ideal.matmul_constant_zero_apply, ← Equiv.sum_comp (contrEquiv1 dot_S512x2048_S2048x128_S512x128_1_0_0_1_n_n 2048 rfl rfl).symm]
  refine Finset.sum_congr rfl fun k _ => ?_
  have hk := contrEquiv1_symm_val dot_S512x2048_S2048x128_S512x128_1_0_0_1_n_n 2048 rfl rfl k
  have el : dot_S512x2048_S2048x128_S512x128_1_0_0_1_n_n.lhsIdx (ix2 p q) ((contrEquiv1 dot_S512x2048_S2048x128_S512x128_1_0_0_1_n_n 2048 rfl rfl).symm k) = ix2 p k := funext fun a => Fin.ext (by
    match a with
    | ⟨0, _⟩ => exact lhs_row _ _
    | ⟨1, _⟩ => exact (lhs_contr _ _).trans hk)
  have er : dot_S512x2048_S2048x128_S512x128_1_0_0_1_n_n.rhsIdx (ix2 p q) ((contrEquiv1 dot_S512x2048_S2048x128_S512x128_1_0_0_1_n_n 2048 rfl rfl).symm k) = ix2 k q := funext fun a => Fin.ext (by
    match a with
    | ⟨0, _⟩ => exact (rhs_contr _ _).trans hk
    | ⟨1, _⟩ => exact rhs_col _ _)
  rw [el, er]

/-- Activations `[512, 2048]` against one gate's weight tile `[1, 2048, 128]`, both narrowed to bf16. -/
theorem tile_product (A : Vec Ideal S512x2048 .f32) (W : Vec Ideal S1x2048x128 .f32) (p : Fin 512) (q : Fin 128) :
    matmul dot_S512x2048_S2048x128_S512x128_1_0_0_1_n_n none (truncf .bf16 A bitsLt_bf16_f32)
        (truncf .bf16 (shapeCast S2048x128 W shapeCasts_S1x2048x128_S2048x128) bitsLt_bf16_f32)
        (constant (F := Ideal) S512x128 .f32 0x00000000#32) (ix2 p q)
      = ∑ k : Fin 2048, A (ix2 p k) * W (ix3 (0 : Fin 1) k q) := by
  rw [matmul_read]
  refine Finset.sum_congr rfl fun k _ => ?_
  show A (ix2 p k) * shapeCast S2048x128 W shapeCasts_S1x2048x128_S2048x128 (ix2 k q) = _
  rw [shapeCast_1ab_ab_apply]

/-- A bias row taken out of its `[1, 128]` load and spread over the block's 512 rows. -/
theorem bias_spread (b : Vec Ideal S1x128 .f32) (p : Fin 512) (q : Fin 128) :
    broadcastTo S512x128 (shapeCast S1x128 (shapeCast S128 b shapeCasts_S1x128_S128) shapeCasts_S128_S1x128) broadcasts_S1x128_S512x128 (ix2 p q)
      = b (ix2 (0 : Fin 1) q) := by
  rw [broadcastTo_1b_ab_apply, shapeCast_a_1a_apply, shapeCast_1a_a_apply]

/-! ## The payloads that hold a product -/

theorem pay6_read (v0 : Vec Ideal S512x2048 .f32) (w : Vec Ideal S1x2048x128 .f32) (p : Fin 512) (q : Fin 128) :
    k0_pay6 v0 w (ix2 p q) = ∑ k : Fin 2048, v0 (ix2 p k) * w (ix3 (0 : Fin 1) k q) :=
  tile_product v0 w p q

theorem pay7_read (v2 : Vec Ideal S512x2048 .f32) (w : Vec Ideal S1x2048x128 .f32) (p : Fin 512) (q : Fin 128) :
    k0_pay7 v2 w (ix2 p q) = ∑ k : Fin 2048, v2 (ix2 p k) * w (ix3 (0 : Fin 1) k q) :=
  tile_product v2 w p q

theorem pay10_read (v0 : Vec Ideal S512x2048 .f32) (w : Vec Ideal S1x2048x128 .f32) (p : Fin 512) (q : Fin 128) :
    k0_pay10 (truncf .bf16 v0 bitsLt_bf16_f32) w (ix2 p q) = ∑ k : Fin 2048, v0 (ix2 p k) * w (ix3 (0 : Fin 1) k q) :=
  tile_product v0 w p q

theorem pay11_read (v2 : Vec Ideal S512x2048 .f32) (w : Vec Ideal S1x2048x128 .f32) (p : Fin 512) (q : Fin 128) :
    k0_pay11 (truncf .bf16 v2 bitsLt_bf16_f32) w (ix2 p q) = ∑ k : Fin 2048, v2 (ix2 p k) * w (ix3 (0 : Fin 1) k q) :=
  tile_product v2 w p q

/-- Gate 0's pre-activation: both products, then the two bias rows. -/
theorem pay5_read (v0 v2 : Vec Ideal S512x2048 .f32) (wx wh : Vec Ideal S1x2048x128 .f32) (bx bh : Vec Ideal S1x128 .f32)
    (p : Fin 512) (q : Fin 128) :
    k0_pay5 v0 v2 wx wh bx bh (ix2 p q)
      = (∑ k : Fin 2048, v0 (ix2 p k) * wx (ix3 (0 : Fin 1) k q)) + (∑ k : Fin 2048, v2 (ix2 p k) * wh (ix3 (0 : Fin 1) k q))
          + bx (ix2 (0 : Fin 1) q) + bh (ix2 (0 : Fin 1) q) := by
  unfold k0_pay5 k0_pay3 k0_pay4
  refine (addf_apply _ _ _).trans ?_
  refine congrArg₂ (· + ·) ((addf_apply _ _ _).trans ?_) (bias_spread bh p q)
  refine congrArg₂ (· + ·) ((addf_apply _ _ _).trans ?_) (bias_spread bx p q)
  exact congrArg₂ (· + ·) (tile_product v0 wx p q) (tile_product v2 wh p q)

/-- Gate 2's pre-activation, over the already narrowed activations. -/
theorem pay9_read (v0 v2 : Vec Ideal S512x2048 .f32) (wx wh : Vec Ideal S1x2048x128 .f32) (bx bh : Vec Ideal S1x128 .f32)
    (p : Fin 512) (q : Fin 128) :
    k0_pay9 (truncf .bf16 v0 bitsLt_bf16_f32) (truncf .bf16 v2 bitsLt_bf16_f32) wx wh bx bh (ix2 p q)
      = (∑ k : Fin 2048, v0 (ix2 p k) * wx (ix3 (0 : Fin 1) k q)) + (∑ k : Fin 2048, v2 (ix2 p k) * wh (ix3 (0 : Fin 1) k q))
          + bx (ix2 (0 : Fin 1) q) + bh (ix2 (0 : Fin 1) q) := by
  unfold k0_pay9
  refine (addf_apply _ _ _).trans ?_
  refine congrArg₂ (· + ·) ((addf_apply _ _ _).trans ?_) (bias_spread bh p q)
  refine congrArg₂ (· + ·) ((addf_apply _ _ _).trans ?_) (bias_spread bx p q)
  exact congrArg₂ (· + ·) (tile_product v0 wx p q) (tile_product v2 wh p q)

end Cert.KernelIdeal.Body

end
-- ==== Proof.KernelBlock.lean ====
/-
  One grid point of the kernel: what the body leaves in its two `[512, 128]` output blocks is the block of the
  LSTM cell (`LstmSpec`) that starts at row `r0` and column `c0`, whenever the input blocks are the
  corresponding pieces of the seven arrays: rows `r0 .. r0 + 511` of `x`, `h` and (columns `c0 .. c0 + 127` of) `c`,
  and columns `c0 .. c0 + 127` of the transposed weights and of the biases.
-/
import proofs.«131256_j6365141533233_1_alg».proof.Proof.Gen.KernelIdeal.Value
import proofs.«131256_j6365141533233_1_alg».proof.Proof.LstmSpec
import proofs.«131256_j6365141533233_1_alg».proof.Proof.KernelBody

noncomputable section

namespace Cert.KernelIdeal.Block

open Cert.KernelIdeal Cert.KernelIdeal.Gen Cert.KernelIdeal.Value Cert.KernelIdeal.Body Cert.Lstm
open Idealize.ShloMosaic Idealize.ShloMosaic.TcCoe Idealize.ShloMosaic.ValueIdx

/-- One gate's pre-activation at `(p, q)` of the block, from the activations' blocks, the gate's two weight tiles
    and its two bias rows. -/
def pre (A H : Vec Ideal S512x2048 .f32) (wx wh : Vec Ideal S1x2048x128 .f32) (bx bh : Vec Ideal S1x128 .f32)
    (p : Fin 512) (q : Fin 128) : EReal :=
  (∑ k : Fin 2048, A (ix2 p k) * wx (ix3 (0 : Fin 1) k q)) + (∑ k : Fin 2048, H (ix2 p k) * wh (ix3 (0 : Fin 1) k q))
    + bx (ix2 (0 : Fin 1) q) + bh (ix2 (0 : Fin 1) q)

/-! ## The two output blocks as functions of the body's loads -/

/-- The cell-state block at `(p, q)`. -/
theorem cell_loads (P0 : Vec Ideal S512x2048 .f32) (P1 : Vec Ideal S1x2048x128 .f32) (P2 : Vec Ideal S512x2048 .f32) (P3 : Vec Ideal S1x2048x128 .f32)
    (P4 P5 : Vec Ideal S1x128 .f32) (P6 : Vec Ideal S512x128 .f32) (P7 P8 : Vec Ideal S1x2048x128 .f32) (P9 P10 : Vec Ideal S1x128 .f32)
    (P11 P12 : Vec Ideal S1x2048x128 .f32) (P13 P14 : Vec Ideal S1x128 .f32) (p : Fin 512) (q : Fin 128) :
    E8 P0 P1 P2 P3 P4 P5 P6 P7 P8 P9 P10 P11 P12 P13 P14 (ix2 p q)
      = Ideal.logistic (pre P0 P2 P1 P3 P4 P5 p q) * P6 (ix2 p q)
        + Ideal.logistic (pre P0 P2 P7 P8 P9 P10 p q) * Ideal.tanh (pre P0 P2 P11 P12 P13 P14 p q) := by
  have e_ix8_0 : ix8_0 (ix2 p q) = ix2 p q := funext fun a => Fin.ext (by match a with | ⟨0, _⟩ => rfl | ⟨1, _⟩ => rfl)
  have e_ix8_1 : ix8_1 (ix2 p q) = ix2 p q := funext fun a => Fin.ext (by match a with | ⟨0, _⟩ => rfl | ⟨1, _⟩ => rfl)
  have e_ix8_2 : ix8_2 (ix2 p q) = ix2 (0 : Fin 1) q := funext fun a => Fin.ext (by match a with | ⟨0, _⟩ => rfl | ⟨1, _⟩ => rfl)
  have e_ix8_3 : ix8_3 (ix2 p q) = ix2 (0 : Fin 1) q := funext fun a => Fin.ext (by match a with | ⟨0, _⟩ => rfl | ⟨1, _⟩ => rfl)
  have e_ix8_4 : ix8_4 (ix2 p q) = ix2 p q := funext fun a => Fin.ext (by match a with | ⟨0, _⟩ => rfl | ⟨1, _⟩ => rfl)
  have e_ix8_5 : ix8_5 (ix2 p q) = ix2 p q := funext fun a => Fin.ext (by match a with | ⟨0, _⟩ => rfl | ⟨1, _⟩ => rfl)
  have e_ix8_6 : ix8_6 (ix2 p q) = ix2 p q := funext fun a => Fin.ext (by match a with | ⟨0, _⟩ => rfl | ⟨1, _⟩ => rfl)
  have e_ix8_7 : ix8_7 (ix2 p q) = ix2 p q := funext fun a => Fin.ext (by match a with | ⟨0, _⟩ => rfl | ⟨1, _⟩ => rfl)
  have e_ix8_8 : ix8_8 (ix2 p q) = ix2 (0 : Fin 1) q := funext fun a => Fin.ext (by match a with | ⟨0, _⟩ => rfl | ⟨1, _⟩ => rfl)
  have e_ix8_9 : ix8_9 (ix2 p q) = ix2 (0 : Fin 1) q := funext fun a => Fin.ext (by match a with | ⟨0, _⟩ => rfl | ⟨1, _⟩ => rfl)
  unfold E8 pre
  rw [e_ix8_0, e_ix8_1, e_ix8_2, e_ix8_3, e_ix8_4, e_ix8_5, e_ix8_6, e_ix8_7, e_ix8_8, e_ix8_9,
    pay6_read, pay7_read, pay5_read, pay10_read, pay11_read]
  rfl

/-- The hidden-state block at `(p, q)`. -/
theorem hidden_loads (P0 P1 : Vec Ideal S512x2048 .f32) (P2 P3 : Vec Ideal S1x2048x128 .f32) (P4 P5 : Vec Ideal S1x128 .f32)
    (P6 P7 : Vec Ideal S1x2048x128 .f32) (P8 P9 : Vec Ideal S1x128 .f32) (P10 : Vec Ideal S512x128 .f32)
    (P11 P12 : Vec Ideal S1x2048x128 .f32) (P13 P14 : Vec Ideal S1x128 .f32) (P15 P16 : Vec Ideal S1x2048x128 .f32) (P17 P18 : Vec Ideal S1x128 .f32)
    (p : Fin 512) (q : Fin 128) :
    E7 P0 P1 P2 P3 P4 P5 P6 P7 P8 P9 P10 P11 P12 P13 P14 P15 P16 P17 P18 (ix2 p q)
      = Ideal.logistic (pre P0 P1 P2 P3 P4 P5 p q)
        * Ideal.tanh (Ideal.logistic (pre P0 P1 P6 P7 P8 P9 p q) * P10 (ix2 p q)
            + Ideal.logistic (pre P0 P1 P11 P12 P13 P14 p q) * Ideal.tanh (pre P0 P1 P15 P16 P17 P18 p q)) := by
  have e_ix7_0 : ix7_0 (ix2 p q) = ix2 p q := funext fun a => Fin.ext (by match a with | ⟨0, _⟩ => rfl | ⟨1, _⟩ => rfl)
  have e_ix7_1 : ix7_1 (ix2 p q) = ix2 p q := funext fun a => Fin.ext (by match a with | ⟨0, _⟩ => rfl | ⟨1, _⟩ => rfl)
  have e_ix7_2 : ix7_2 (ix2 p q) = ix2 p q := funext fun a => Fin.ext (by match a with | ⟨0, _⟩ => rfl | ⟨1, _⟩ => rfl)
  have e_ix7_3 : ix7_3 (ix2 p q) = ix2 (0 : Fin 1) q := funext fun a => Fin.ext (by match a with | ⟨0, _⟩ => rfl | ⟨1, _⟩ => rfl)
  have e_ix7_4 : ix7_4 (ix2 p q) = ix2 (0 : Fin 1) q := funext fun a => Fin.ext (by match a with | ⟨0, _⟩ => rfl | ⟨1, _⟩ => rfl)
  have e_ix7_5 : ix7_5 (ix2 p q) = ix2 p q := funext fun a => Fin.ext (by match a with | ⟨0, _⟩ => rfl | ⟨1, _⟩ => rfl)
  have e_ix7_6 : ix7_6 (ix2 p q) = ix2 p q := funext fun a => Fin.ext (by match a with | ⟨0, _⟩ => rfl | ⟨1, _⟩ => rfl)
  have e_ix7_7 : ix7_7 (ix2 p q) = ix2 p q := funext fun a => Fin.ext (by match a with | ⟨0, _⟩ => rfl | ⟨1, _⟩ => rfl)
  have e_ix7_8 : ix7_8 (ix2 p q) = ix2 p q := funext fun a => Fin.ext (by match a with | ⟨0, _⟩ => rfl | ⟨1, _⟩ => rfl)
  have e_ix7_9 : ix7_9 (ix2 p q) = ix2 (0 : Fin 1) q := funext fun a => Fin.ext (by match a with | ⟨0, _⟩ => rfl | ⟨1, _⟩ => rfl)
  have e_ix7_10 : ix7_10 (ix2 p q) = ix2 (0 : Fin 1) q := funext fun a => Fin.ext (by match a with | ⟨0, _⟩ => rfl | ⟨1, _⟩ => rfl)
  unfold E7 pre
  rw [e_ix7_0, e_ix7_1, e_ix7_2, e_ix7_3, e_ix7_4, e_ix7_5, e_ix7_6, e_ix7_7, e_ix7_8, e_ix7_9, e_ix7_10,
    pay9_read, pay6_read, pay7_read, pay5_read, pay10_read, pay11_read]
  rfl

/-! ## The body's loads out of the staged blocks: gate `g`'s tile and row sit at offset `g` of the leading axis -/

theorem ld_act (A : Vec Ideal S512x2048 .f32) (p : Fin 512) (k : Fin 2048) : View.ld A r0_0 (ix2 p k) = A (ix2 p k) := by
  show A (r0_0.emb (ix2 p k)) = _
  congr 1; funext a; apply Fin.ext
  match a with
  | ⟨0, _⟩ => show 0 + 1 * p.val = p.val; omega
  | ⟨1, _⟩ => show 0 + 1 * k.val = k.val; omega

theorem ld_cell (C : Vec Ideal S512x128 .f32) (p : Fin 512) (q : Fin 128) : View.ld C r0_9 (ix2 p q) = C (ix2 p q) := by
  show C (r0_9.emb (ix2 p q)) = _
  congr 1; funext a; apply Fin.ext
  match a with
  | ⟨0, _⟩ => show 0 + 1 * p.val = p.val; omega
  | ⟨1, _⟩ => show 0 + 1 * q.val = q.val; omega

theorem ld_w0 (W : Vec Ideal S4x2048x128 .f32) (k : Fin 2048) (q : Fin 128) :
    View.ld W r0_1 (ix3 (0 : Fin 1) k q) = W (ix3 (0 : Fin 4) k q) := by
  show W (r0_1.emb (ix3 (0 : Fin 1) k q)) = _
  congr 1; funext a; apply Fin.ext
  match a with
  | ⟨0, _⟩ => rfl
  | ⟨1, _⟩ => show 0 + 1 * k.val = k.val; omega
  | ⟨2, _⟩ => show 0 + 1 * q.val = q.val; omega

theorem ld_w1 (W : Vec Ideal S4x2048x128 .f32) (k : Fin 2048) (q : Fin 128) :
    View.ld W r0_3 (ix3 (0 : Fin 1) k q) = W (ix3 (1 : Fin 4) k q) := by
  show W (r0_3.emb (ix3 (0 : Fin 1) k q)) = _
  congr 1; funext a; apply Fin.ext
  match a with
  | ⟨0, _⟩ => rfl
  | ⟨1, _⟩ => show 0 + 1 * k.val = k.val; omega
  | ⟨2, _⟩ => show 0 + 1 * q.val = q.val; omega

theorem ld_w2 (W : Vec Ideal S4x2048x128 .f32) (k : Fin 2048) (q : Fin 128) :
    View.ld W r0_5 (ix3 (0 : Fin 1) k q) = W (ix3 (2 : Fin 4) k q) := by
  show W (r0_5.emb (ix3 (0 : Fin 1) k q)) = _
  congr 1; funext a; apply Fin.ext
  match a with
  | ⟨0, _⟩ => rfl
  | ⟨1, _⟩ => show 0 + 1 * k.val = k.val; omega
  | ⟨2, _⟩ => show 0 + 1 * q.val = q.val; omega

theorem ld_w3 (W : Vec Ideal S4x2048x128 .f32) (k : Fin 2048) (q : Fin 128) :
    View.ld W r0_7 (ix3 (0 : Fin 1) k q) = W (ix3 (3 : Fin 4) k q) := by
  show W (r0_7.emb (ix3 (0 : Fin 1) k q)) = _
  congr 1; funext a; apply Fin.ext
  match a with
  | ⟨0, _⟩ => rfl
  | ⟨1, _⟩ => show 0 + 1 * k.val = k.val; omega
  | ⟨2, _⟩ => show 0 + 1 * q.val = q.val; omega

theorem ld_b0 (B : Vec Ideal S4x128 .f32) (q : Fin 128) :
    View.ld B r0_2 (ix2 (0 : Fin 1) q) = B (ix2 (0 : Fin 4) q) := by
  show B (r0_2.emb (ix2 (0 : Fin 1) q)) = _
  congr 1; funext a; apply Fin.ext
  match a with
  | ⟨0, _⟩ => rfl
  | ⟨1, _⟩ => show 0 + 1 * q.val = q.val; omega

theorem ld_b1 (B : Vec Ideal S4x128 .f32) (q : Fin 128) :
    View.ld B r0_4 (ix2 (0 : Fin 1) q) = B (ix2 (1 : Fin 4) q) := by
  show B (r0_4.emb (ix2 (0 : Fin 1) q)) = _
  congr 1; funext a; apply Fin.ext
  match a with
  | ⟨0, _⟩ => rfl
  | ⟨1, _⟩ => show 0 + 1 * q.val = q.val; omega

theorem ld_b2 (B : Vec Ideal S4x128 .f32) (q : Fin 128) :
    View.ld B r0_6 (ix2 (0 : Fin 1) q) = B (ix2 (2 : Fin 4) q) := by
  show B (r0_6.emb (ix2 (0 : Fin 1) q)) = _
  congr 1; funext a; apply Fin.ext
  match a with
  | ⟨0, _⟩ => rfl
  | ⟨1, _⟩ => show 0 + 1 * q.val = q.val; omega

theorem ld_b3 (B : Vec Ideal S4x128 .f32) (q : Fin 128) :
    View.ld B r0_8 (ix2 (0 : Fin 1) q) = B (ix2 (3 : Fin 4) q) := by
  show B (r0_8.emb (ix2 (0 : Fin 1) q)) = _
  congr 1; funext a; apply Fin.ext
  match a with
  | ⟨0, _⟩ => rfl
  | ⟨1, _⟩ => show 0 + 1 * q.val = q.val; omega

/-! ## One grid point: the blocks at row offset `r0` and column offset `c0` -/

/-- Row `p` of the block is row `r0 + p` of the array. -/
abbrev row (r0 : ℕ) (hr : r0 + 512 ≤ 4096) (p : Fin 512) : Fin 4096 := ⟨r0 + p.val, by have := p.isLt; omega⟩
/-- Column `q` of the block is column `c0 + q` of the array. -/
abbrev col (c0 : ℕ) (hc : c0 + 128 ≤ 2048) (q : Fin 128) : Fin 2048 := ⟨c0 + q.val, by have := q.isLt; omega⟩

section Point

variable (I : Args) (X H : Vec Ideal S512x2048 .f32) (C : Vec Ideal S512x128 .f32) (WX WH : Vec Ideal S4x2048x128 .f32)
  (BX BH : Vec Ideal S4x128 .f32) (r0 c0 : ℕ) (hr : r0 + 512 ≤ 4096) (hc : c0 + 128 ≤ 2048)
  (hX : ∀ (p : Fin 512) (k : Fin 2048), X (ix2 p k) = I.x (ix2 (row r0 hr p) k))
  (hH : ∀ (p : Fin 512) (k : Fin 2048), H (ix2 p k) = I.h (ix2 (row r0 hr p) k))
  (hC : ∀ (p : Fin 512) (q : Fin 128), C (ix2 p q) = I.c (ix2 (row r0 hr p) (col c0 hc q)))
  (hWX : ∀ (g : Fin 4) (k : Fin 2048) (q : Fin 128), WX (ix3 g k q) = I.Wx (ix3 g (col c0 hc q) k))
  (hWH : ∀ (g : Fin 4) (k : Fin 2048) (q : Fin 128), WH (ix3 g k q) = I.Wh (ix3 g (col c0 hc q) k))
  (hBX : ∀ (g : Fin 4) (q : Fin 128), BX (ix2 g q) = I.bx (ix2 g (col c0 hc q)))
  (hBH : ∀ (g : Fin 4) (q : Fin 128), BH (ix2 g q) = I.bh (ix2 g (col c0 hc q)))

include hX hH hWX hWH hBX hBH

/-- Gate `g`'s pre-activation computed from the blocks is the array's at `(r0 + p, c0 + q)`: the block of the
    transposed weights holds `Wx[g, c0 + q, k]` at `(g, k, q)`. -/
theorem pre_gate0 (p : Fin 512) (q : Fin 128) :
    pre (View.ld X r0_0) (View.ld H r0_0) (View.ld WX r0_1) (View.ld WH r0_1) (View.ld BX r0_2) (View.ld BH r0_2) p q
      = gate I 0 (row r0 hr p) (col c0 hc q) := by
  unfold pre gate xDot hDot
  rw [ld_b0, ld_b0, hBX, hBH]
  refine congrArg₂ (· + ·) (congrArg₂ (· + ·) (congrArg₂ (· + ·) ?_ ?_) rfl) rfl
  · exact Finset.sum_congr rfl fun k _ => by rw [ld_act, ld_w0, hX, hWX]
  · exact Finset.sum_congr rfl fun k _ => by rw [ld_act, ld_w0, hH, hWH]

theorem pre_gate1 (p : Fin 512) (q : Fin 128) :
    pre (View.ld X r0_0) (View.ld H r0_0) (View.ld WX r0_3) (View.ld WH r0_3) (View.ld BX r0_4) (View.ld BH r0_4) p q
      = gate I 1 (row r0 hr p) (col c0 hc q) := by
  unfold pre gate xDot hDot
  rw [ld_b1, ld_b1, hBX, hBH]
  refine congrArg₂ (· + ·) (congrArg₂ (· + ·) (congrArg₂ (· + ·) ?_ ?_) rfl) rfl
  · exact Finset.sum_congr rfl fun k _ => by rw [ld_act, ld_w1, hX, hWX]
  · exact Finset.sum_congr rfl fun k _ => by rw [ld_act, ld_w1, hH, hWH]

theorem pre_gate2 (p : Fin 512) (q : Fin 128) :
    pre (View.ld X r0_0) (View.ld H r0_0) (View.ld WX r0_5) (View.ld WH r0_5) (View.ld BX r0_6) (View.ld BH r0_6) p q
      = gate I 2 (row r0 hr p) (col c0 hc q) := by
  unfold pre gate xDot hDot
  rw [ld_b2, ld_b2, hBX, hBH]
  refine congrArg₂ (· + ·) (congrArg₂ (· + ·) (congrArg₂ (· + ·) ?_ ?_) rfl) rfl
  · exact Finset.sum_congr rfl fun k _ => by rw [ld_act, ld_w2, hX, hWX]
  · exact Finset.sum_congr rfl fun k _ => by rw [ld_act, ld_w2, hH, hWH]

theorem pre_gate3 (p : Fin 512) (q : Fin 128) :
    pre (View.ld X r0_0) (View.ld H r0_0) (View.ld WX r0_7) (View.ld WH r0_7) (View.ld BX r0_8) (View.ld BH r0_8) p q
      = gate I 3 (row r0 hr p) (col c0 hc q) := by
  unfold pre gate xDot hDot
  rw [ld_b3, ld_b3, hBX, hBH]
  refine congrArg₂ (· + ·) (congrArg₂ (· + ·) (congrArg₂ (· + ·) ?_ ?_) rfl) rfl
  · exact Finset.sum_congr rfl fun k _ => by rw [ld_act, ld_w3, hX, hWX]
  · exact Finset.sum_congr rfl fun k _ => by rw [ld_act, ld_w3, hH, hWH]

include hC

/-- The body's second output block is the new cell state's block. -/
theorem cell_block (y : S512x128.Idx) :
    out0_8 X H C WX WH BX BH y = cNew I (ix2 (row r0 hr (y 0)) (col c0 hc (y 1))) := by
  obtain ⟨p, q, rfl⟩ : ∃ (p : Fin 512) (q : Fin 128), y = ix2 p q := ⟨y 0, y 1, eq_ix2 y⟩
  unfold out0_8
  rw [canon8_eq, cell_loads,
    pre_gate0 I X H WX WH BX BH r0 c0 hr hc hX hH hWX hWH hBX hBH,
    pre_gate1 I X H WX WH BX BH r0 c0 hr hc hX hH hWX hWH hBX hBH,
    pre_gate3 I X H WX WH BX BH r0 c0 hr hc hX hH hWX hWH hBX hBH, ld_cell, hC]
  rfl

/-- The body's first output block is the new hidden state's block. -/
theorem hidden_block (y : S512x128.Idx) :
    out0_7 X H C WX WH BX BH y = hNew I (ix2 (row r0 hr (y 0)) (col c0 hc (y 1))) := by
  obtain ⟨p, q, rfl⟩ : ∃ (p : Fin 512) (q : Fin 128), y = ix2 p q := ⟨y 0, y 1, eq_ix2 y⟩
  unfold out0_7
  rw [canon7_eq, hidden_loads,
    pre_gate0 I X H WX WH BX BH r0 c0 hr hc hX hH hWX hWH hBX hBH,
    pre_gate1 I X H WX WH BX BH r0 c0 hr hc hX hH hWX hWH hBX hBH,
    pre_gate2 I X H WX WH BX BH r0 c0 hr hc hX hH hWX hWH hBX hBH,
    pre_gate3 I X H WX WH BX BH r0 c0 hr hc hX hH hWX hWH hBX hBH, ld_cell, hC]
  rfl

end Point

end Cert.KernelIdeal.Block

end
-- ==== Proof.KernelArrays.lean ====
/-
  The kernel's two result arrays after the run are the LSTM cell of its seven arguments.

  The grid is 8 × 16; point `t` works on rows `512·i .. 512·i + 511` and columns `128·j .. 128·j + 127`, where
  `(i, j)` is the block index of the outputs at `t`. The activations' windows follow `i` (all 2048 columns), the
  cell state's follows `(i, j)`, the weights' (transposed on the host before the call, so that the block holds
  `W[g, 128·j + q, k]` at `(g, k, q)`) and the biases' follow `j`. Each point writes its own block of each output,
  and the 128 blocks tile the arrays.
-/
import proofs.«131256_j6365141533233_1_alg».proof.Proof.KernelBlock
import Idealize.ShloMosaic.Lib.StableHlo.Run
import Idealize.ShloMosaic.Lib.ValueLayout

set_option maxRecDepth 16384

noncomputable section

namespace Cert.KernelIdeal.Arrays

open Cert.KernelIdeal Cert.KernelIdeal.Gen Cert.KernelIdeal.Value Cert.KernelIdeal.Block Cert.Lstm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The seven argument arrays on core `c`, as launched. -/
def args (c : Dev nD) : Args where
  x := m ((c : Thread nD τ).loc main_arg0)
  h := m ((c : Thread nD τ).loc main_arg1)
  c := m ((c : Thread nD τ).loc main_arg2)
  Wx := m ((c : Thread nD τ).loc main_arg3)
  bx := m ((c : Thread nD τ).loc main_arg4)
  Wh := m ((c : Thread nD τ).loc main_arg5)
  bh := m ((c : Thread nD τ).loc main_arg6)

/-! ## The two arrays the host writes before the call: the weights with their last two axes swapped -/

theorem wx_swapped (c : Dev nD) : (V m c main_v0 : S4x2048x2048.Idx → EReal)
    = transpose S4x2048x2048 [0, 2, 1] (m ((c : Thread nD τ).loc main_arg3)) transposes_S4x2048x2048_S4x2048x2048_0_2_1 := by
  dsimp only [Gen.V, Gen.hostOps0]; after_results

theorem wh_swapped (c : Dev nD) : (V m c main_v1 : S4x2048x2048.Idx → EReal)
    = transpose S4x2048x2048 [0, 2, 1] (m ((c : Thread nD τ).loc main_arg5)) transposes_S4x2048x2048_S4x2048x2048_0_2_1 := by
  dsimp only [Gen.V, Gen.hostOps0]; after_results

/-! ## The index maps, decided over the 128 grid points -/

theorem idx_bound : ∀ t : Fin cfg0.N, win0_8.index t (0 : Fin 2) ≤ 7 ∧ win0_8.index t (1 : Fin 2) ≤ 15 :=
  (by decide +kernel : ∀ t : Fin grid0.N, _)
theorem idx_0 : ∀ t : Fin cfg0.N, win0_0.index t (0 : Fin 2) = win0_8.index t (0 : Fin 2) ∧ win0_0.index t (1 : Fin 2) = 0 :=
  (by decide +kernel : ∀ t : Fin grid0.N, _)
theorem idx_1 : ∀ t : Fin cfg0.N, win0_1.index t (0 : Fin 2) = win0_8.index t (0 : Fin 2) ∧ win0_1.index t (1 : Fin 2) = 0 :=
  (by decide +kernel : ∀ t : Fin grid0.N, _)
theorem idx_2 : ∀ t : Fin cfg0.N, win0_2.index t (0 : Fin 2) = win0_8.index t (0 : Fin 2) ∧ win0_2.index t (1 : Fin 2) = win0_8.index t (1 : Fin 2) :=
  (by decide +kernel : ∀ t : Fin grid0.N, _)
theorem idx_3 : ∀ t : Fin cfg0.N, win0_3.index t (0 : Fin 3) = 0 ∧ win0_3.index t (1 : Fin 3) = 0 ∧ win0_3.index t (2 : Fin 3) = win0_8.index t (1 : Fin 2) :=
  (by decide +kernel : ∀ t : Fin grid0.N, _)
theorem idx_4 : ∀ t : Fin cfg0.N, win0_4.index t (0 : Fin 3) = 0 ∧ win0_4.index t (1 : Fin 3) = 0 ∧ win0_4.index t (2 : Fin 3) = win0_8.index t (1 : Fin 2) :=
  (by decide +kernel : ∀ t : Fin grid0.N, _)
theorem idx_5 : ∀ t : Fin cfg0.N, win0_5.index t (0 : Fin 2) = 0 ∧ win0_5.index t (1 : Fin 2) = win0_8.index t (1 : Fin 2) :=
  (by decide +kernel : ∀ t : Fin grid0.N, _)
theorem idx_6 : ∀ t : Fin cfg0.N, win0_6.index t (0 : Fin 2) = 0 ∧ win0_6.index t (1 : Fin 2) = win0_8.index t (1 : Fin 2) :=
  (by decide +kernel : ∀ t : Fin grid0.N, _)
theorem idx_7 : ∀ t : Fin cfg0.N, win0_7.index t (0 : Fin 2) = win0_8.index t (0 : Fin 2) ∧ win0_7.index t (1 : Fin 2) = win0_8.index t (1 : Fin 2) :=
  (by decide +kernel : ∀ t : Fin grid0.N, _)
/-- Every block index of the 8 × 16 tiling is some point's. -/
theorem idx_onto : ∀ (q0 : Fin 8) (q1 : Fin 16), ∃ t : Fin cfg0.N, win0_8.index t = ![q0.val, q1.val] :=
  (by decide +kernel : ∀ (q0 : Fin 8) (q1 : Fin 16), ∃ t : Fin grid0.N, win0_8.index t = ![q0.val, q1.val])

/-- Point `t`'s first row and first column. -/
abbrev r0 (t : Fin cfg0.N) : ℕ := win0_8.index t (0 : Fin 2) * 512
abbrev c0 (t : Fin cfg0.N) : ℕ := win0_8.index t (1 : Fin 2) * 128
theorem hr (t : Fin cfg0.N) : r0 t + 512 ≤ 4096 := by have := (idx_bound t).1; show win0_8.index t (0 : Fin 2) * 512 + 512 ≤ 4096; omega
theorem hc (t : Fin cfg0.N) : c0 t + 128 ≤ 2048 := by have := (idx_bound t).2; show win0_8.index t (1 : Fin 2) * 128 + 128 ≤ 2048; omega

/-! ## Each input window's block at point `t`, read off the arguments -/

theorem blk_x (c : Dev nD) (t : Fin cfg0.N) (p : Fin 512) (k : Fin 2048) :
    iblk m c 0 t (ix2 p k) = (args m c).x (ix2 (row (r0 t) (hr t) p) k) := by
  obtain ⟨e0, e1⟩ := idx_0 t
  show V m c main_arg0 (((cfg0.win 0).blk t).view.emb (ix2 p k)) = m ((c : Thread nD τ).loc main_arg0) (ix2 (row (r0 t) (hr t) p) k)
  rw [V_main_arg0]
  congr 1; funext a; apply Fin.ext
  match a with
  | ⟨0, _⟩ => show win0_0.index t (0 : Fin 2) * 512 + 1 * p.val = win0_8.index t (0 : Fin 2) * 512 + p.val; omega
  | ⟨1, _⟩ => show win0_0.index t (1 : Fin 2) * 2048 + 1 * k.val = k.val; omega

theorem blk_h (c : Dev nD) (t : Fin cfg0.N) (p : Fin 512) (k : Fin 2048) :
    iblk m c 1 t (ix2 p k) = (args m c).h (ix2 (row (r0 t) (hr t) p) k) := by
  obtain ⟨e0, e1⟩ := idx_1 t
  show V m c main_arg1 (((cfg0.win 1).blk t).view.emb (ix2 p k)) = m ((c : Thread nD τ).loc main_arg1) (ix2 (row (r0 t) (hr t) p) k)
  rw [V_main_arg1]
  congr 1; funext a; apply Fin.ext
  match a with
  | ⟨0, _⟩ => show win0_1.index t (0 : Fin 2) * 512 + 1 * p.val = win0_8.index t (0 : Fin 2) * 512 + p.val; omega
  | ⟨1, _⟩ => show win0_1.index t (1 : Fin 2) * 2048 + 1 * k.val = k.val; omega

theorem blk_c (c : Dev nD) (t : Fin cfg0.N) (p : Fin 512) (q : Fin 128) :
    iblk m c 2 t (ix2 p q) = (args m c).c (ix2 (row (r0 t) (hr t) p) (col (c0 t) (hc t) q)) := by
  obtain ⟨e0, e1⟩ := idx_2 t
  show V m c main_arg2 (((cfg0.win 2).blk t).view.emb (ix2 p q)) = m ((c : Thread nD τ).loc main_arg2) (ix2 (row (r0 t) (hr t) p) (col (c0 t) (hc t) q))
  rw [V_main_arg2]
  congr 1; funext a; apply Fin.ext
  match a with
  | ⟨0, _⟩ => show win0_2.index t (0 : Fin 2) * 512 + 1 * p.val = win0_8.index t (0 : Fin 2) * 512 + p.val; omega
  | ⟨1, _⟩ => show win0_2.index t (1 : Fin 2) * 128 + 1 * q.val = win0_8.index t (1 : Fin 2) * 128 + q.val; omega

theorem blk_wx (c : Dev nD) (t : Fin cfg0.N) (g : Fin 4) (k : Fin 2048) (q : Fin 128) :
    iblk m c 3 t (ix3 g k q) = (args m c).Wx (ix3 g (col (c0 t) (hc t) q) k) := by
  obtain ⟨e0, e1, e2⟩ := idx_3 t
  have e : ((cfg0.win 3).blk t).view.emb (ix3 g k q) = ix3 g k (col (c0 t) (hc t) q) := by
    funext a; apply Fin.ext
    match a with
    | ⟨0, _⟩ => show win0_3.index t (0 : Fin 3) * 4 + 1 * g.val = g.val; omega
    | ⟨1, _⟩ => show win0_3.index t (1 : Fin 3) * 2048 + 1 * k.val = k.val; omega
    | ⟨2, _⟩ => show win0_3.index t (2 : Fin 3) * 128 + 1 * q.val = win0_8.index t (1 : Fin 2) * 128 + q.val; omega
  show V m c main_v0 (((cfg0.win 3).blk t).view.emb (ix3 g k q)) = _
  rw [e, wx_swapped, transpose_ix3_021_apply]
  rfl

theorem blk_wh (c : Dev nD) (t : Fin cfg0.N) (g : Fin 4) (k : Fin 2048) (q : Fin 128) :
    iblk m c 4 t (ix3 g k q) = (args m c).Wh (ix3 g (col (c0 t) (hc t) q) k) := by
  obtain ⟨e0, e1, e2⟩ := idx_4 t
  have e : ((cfg0.win 4).blk t).view.emb (ix3 g k q) = ix3 g k (col (c0 t) (hc t) q) := by
    funext a; apply Fin.ext
    match a with
    | ⟨0, _⟩ => show win0_4.index t (0 : Fin 3) * 4 + 1 * g.val = g.val; omega
    | ⟨1, _⟩ => show win0_4.index t (1 : Fin 3) * 2048 + 1 * k.val = k.val; omega
    | ⟨2, _⟩ => show win0_4.index t (2 : Fin 3) * 128 + 1 * q.val = win0_8.index t (1 : Fin 2) * 128 + q.val; omega
  show V m c main_v1 (((cfg0.win 4).blk t).view.emb (ix3 g k q)) = _
  rw [e, wh_swapped, transpose_ix3_021_apply]
  rfl

theorem blk_bx (c : Dev nD) (t : Fin cfg0.N) (g : Fin 4) (q : Fin 128) :
    iblk m c 5 t (ix2 g q) = (args m c).bx (ix2 g (col (c0 t) (hc t) q)) := by
  obtain ⟨e0, e1⟩ := idx_5 t
  show V m c main_arg4 (((cfg0.win 5).blk t).view.emb (ix2 g q)) = m ((c : Thread nD τ).loc main_arg4) (ix2 g (col (c0 t) (hc t) q))
  rw [V_main_arg4]
  congr 1; funext a; apply Fin.ext
  match a with
  | ⟨0, _⟩ => show win0_5.index t (0 : Fin 2) * 4 + 1 * g.val = g.val; omega
  | ⟨1, _⟩ => show win0_5.index t (1 : Fin 2) * 128 + 1 * q.val = win0_8.index t (1 : Fin 2) * 128 + q.val; omega

theorem blk_bh (c : Dev nD) (t : Fin cfg0.N) (g : Fin 4) (q : Fin 128) :
    iblk m c 6 t (ix2 g q) = (args m c).bh (ix2 g (col (c0 t) (hc t) q)) := by
  obtain ⟨e0, e1⟩ := idx_6 t
  show V m c main_arg6 (((cfg0.win 6).blk t).view.emb (ix2 g q)) = m ((c : Thread nD τ).loc main_arg6) (ix2 g (col (c0 t) (hc t) q))
  rw [V_main_arg6]
  congr 1; funext a; apply Fin.ext
  match a with
  | ⟨0, _⟩ => show win0_6.index t (0 : Fin 2) * 4 + 1 * g.val = g.val; omega
  | ⟨1, _⟩ => show win0_6.index t (1 : Fin 2) * 128 + 1 * q.val = win0_8.index t (1 : Fin 2) * 128 + q.val; omega

/-! ## The new hidden state (output window 7) -/

/-- What point `t` writes back to output 7 is block `t` of `hNew`. -/
theorem flushed7_eq (c : Dev nD) (t : Fin cfg0.N) :
    (dats m 0 c).flushed 7 t = ((cfg0.win 7).blk t).view.read (Elt Ideal) (hNew (args m c)) := by
  rw [flushed7]
  funext y
  have e : ((cfg0.win 7).blk t).view.emb y = ix2 (row (r0 t) (hr t) (y 0)) (col (c0 t) (hc t) (y 1)) := by
    obtain ⟨e0, e1⟩ := idx_7 t
    funext a; apply Fin.ext
    match a with
    | ⟨0, _⟩ => show win0_7.index t (0 : Fin 2) * 512 + 1 * (y 0).val = win0_8.index t (0 : Fin 2) * 512 + (y 0).val; omega
    | ⟨1, _⟩ => show win0_7.index t (1 : Fin 2) * 128 + 1 * (y 1).val = win0_8.index t (1 : Fin 2) * 128 + (y 1).val; omega
  show out0_7 (iblk m c 0 t) (iblk m c 1 t) (iblk m c 2 t) (iblk m c 3 t) (iblk m c 4 t) (iblk m c 5 t) (iblk m c 6 t) y
    = hNew (args m c) (((cfg0.win 7).blk t).view.emb y)
  rw [e]
  exact hidden_block (args m c) (iblk m c 0 t) (iblk m c 1 t) (iblk m c 2 t) (iblk m c 3 t) (iblk m c 4 t) (iblk m c 5 t) (iblk m c 6 t)
    (r0 t) (c0 t) (hr t) (hc t) (blk_x m c t) (blk_h m c t) (blk_c m c t) (blk_wx m c t) (blk_wh m c t) (blk_bx m c t) (blk_bh m c t) y

/-- An index of the array lies in point `t`'s block iff each coordinate lies in the block's range on its axis. -/
theorem mem_blk7 (t : Fin cfg0.N) (i : S4096x2048.Idx) :
    i ∈ ((cfg0.win 7).blk t).view.set ↔ ∀ a : Fin 2, win0_7.index t a * S512x128.size a ≤ (i a).val ∧ (i a).val < win0_7.index t a * S512x128.size a + S512x128.size a := by
  show i ∈ ((View.whole main_v2_0).slice (win0_7.rect t)).set ↔ _
  rw [View.set_slice_whole, Rect.mem_set_unit]
  exact Iff.rfl

/-- The 8 × 16 blocks tile the `[4096, 2048]` array: `(b, o)` lies in the block of point `(b / 512, o / 128)`. -/
theorem cover7 (i : S4096x2048.Idx) : ∃ t : Fin cfg0.N, (cfg0.win 7).flush t = true ∧ i ∈ ((cfg0.win 7).blk t).view.set := by
  have hi0 : (i 0).val < 4096 := (i 0).isLt
  have hi1 : (i 1).val < 2048 := (i 1).isLt
  obtain ⟨t, ht⟩ := idx_onto ⟨(i 0).val / 512, by omega⟩ ⟨(i 1).val / 128, by omega⟩
  obtain ⟨e0, e1⟩ := idx_7 t
  have q0 : win0_8.index t (0 : Fin 2) = (i 0).val / 512 := congrFun ht 0
  have q1 : win0_8.index t (1 : Fin 2) = (i 1).val / 128 := congrFun ht 1
  refine ⟨t, flush0_7 t, ?_⟩
  rw [mem_blk7]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 128 ≤ (i 1).val ∧ (i 1).val < win0_7.index t (1 : Fin 2) * 128 + 128; omega

/-- Output 7's array after the run. -/
theorem final7 (c : Dev nD) : (dats m 0 c).arrAt 7 cfg0.N = hNew (args m c) :=
  (dats m 0 c).arrAt_eq_of_cover 7 (hNew (args m c)) (fun t _ => flushed7_eq m c t) cover7

/-! ## The new cell state (output window 8) -/

/-- What point `t` writes back to output 8 is block `t` of `cNew`. -/
theorem flushed8_eq (c : Dev nD) (t : Fin cfg0.N) :
    (dats m 0 c).flushed 8 t = ((cfg0.win 8).blk t).view.read (Elt Ideal) (cNew (args m c)) := by
  rw [flushed8]
  funext y
  have e : ((cfg0.win 8).blk t).view.emb y = ix2 (row (r0 t) (hr t) (y 0)) (col (c0 t) (hc t) (y 1)) := by
    funext a; apply Fin.ext
    match a with
    | ⟨0, _⟩ => show win0_8.index t (0 : Fin 2) * 512 + 1 * (y 0).val = win0_8.index t (0 : Fin 2) * 512 + (y 0).val; omega
    | ⟨1, _⟩ => show win0_8.index t (1 : Fin 2) * 128 + 1 * (y 1).val = win0_8.index t (1 : Fin 2) * 128 + (y 1).val; omega
  show out0_8 (iblk m c 0 t) (iblk m c 1 t) (iblk m c 2 t) (iblk m c 3 t) (iblk m c 4 t) (iblk m c 5 t) (iblk m c 6 t) y
    = cNew (args m c) (((cfg0.win 8).blk t).view.emb y)
  rw [e]
  exact cell_block (args m c) (iblk m c 0 t) (iblk m c 1 t) (iblk m c 2 t) (iblk m c 3 t) (iblk m c 4 t) (iblk m c 5 t) (iblk m c 6 t)
    (r0 t) (c0 t) (hr t) (hc t) (blk_x m c t) (blk_h m c t) (blk_c m c t) (blk_wx m c t) (blk_wh m c t) (blk_bx m c t) (blk_bh m c t) y

/-- An index of the array lies in point `t`'s block iff each coordinate lies in the block's range on its axis. -/
theorem mem_blk8 (t : Fin cfg0.N) (i : S4096x2048.Idx) :
    i ∈ ((cfg0.win 8).blk t).view.set ↔ ∀ a : Fin 2, win0_8.index t a * S512x128.size a ≤ (i a).val ∧ (i a).val < win0_8.index t a * S512x128.size a + S512x128.size a := by
  show i ∈ ((View.whole main_v2_1).slice (win0_8.rect t)).set ↔ _
  rw [View.set_slice_whole, Rect.mem_set_unit]
  exact Iff.rfl

/-- The 8 × 16 blocks tile the `[4096, 2048]` array: `(b, o)` lies in the block of point `(b / 512, o / 128)`. -/
theorem cover8 (i : S4096x2048.Idx) : ∃ t : Fin cfg0.N, (cfg0.win 8).flush t = true ∧ i ∈ ((cfg0.win 8).blk t).view.set := by
  have hi0 : (i 0).val < 4096 := (i 0).isLt
  have hi1 : (i 1).val < 2048 := (i 1).isLt
  obtain ⟨t, ht⟩ := idx_onto ⟨(i 0).val / 512, by omega⟩ ⟨(i 1).val / 128, by omega⟩
  have q0 : win0_8.index t (0 : Fin 2) = (i 0).val / 512 := congrFun ht 0
  have q1 : win0_8.index t (1 : Fin 2) = (i 1).val / 128 := congrFun ht 1
  refine ⟨t, flush0_8 t, ?_⟩
  rw [mem_blk8]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 128 ≤ (i 1).val ∧ (i 1).val < win0_8.index t (1 : Fin 2) * 128 + 128; omega

/-- Output 8's array after the run. -/
theorem final8 (c : Dev nD) : (dats m 0 c).arrAt 8 cfg0.N = cNew (args m c) :=
  (dats m 0 c).arrAt_eq_of_cover 8 (cNew (args m c)) (fun t _ => flushed8_eq m c t) cover8

/-! ## The run -/

/-- The kernel's run: both results at the LSTM cell of the arguments, the arguments unchanged. -/
theorem run : θ_run defs (onTc (τ := τ) (main (F := Ideal))) ⟨m, fun _ => 0, ρ⟩ fun r => ∀ c : Dev nD,
      r.2.mem ((c : Thread nD τ).loc main_v2_0) = hNew (args m c)
      ∧ r.2.mem ((c : Thread nD τ).loc main_v2_1) = cNew (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c), (h c).2.2⟩)
    (Value.run_blocks m ρ)

end Cert.KernelIdeal.Arrays

end
-- ==== Proof.lean ====
/-
  An LSTM cell: four gates, each `x·Wxᵀ + h·Whᵀ + bx + bh` for its own slice of the weights and biases, then
      c' = σ(gate 1)·c + σ(gate 0)·tanh(gate 3),    h' = σ(gate 2)·tanh(c').

  The kernel tiles the `[4096, 2048]` outputs into 8 × 16 blocks of `[512, 128]`. For its block it multiplies the 512
  rows of `x` and of `h` (all 2048 columns, narrowed to bf16, accumulated in f32) with the 128 columns of each gate's
  weights, which the host transposed before the call so that the contraction runs over the tile's rows, adds the two
  products and then the two bias rows, and finishes the cell in place. The reference contracts the untransposed weights
  against the activations for all four gates at once, adds `x` product, `x` bias, `h` product, `h` bias in that
  order, slices the gates apart and writes the logistic function out as `1 / (1 + exp (-z))`.

  Over the extended reals narrowing is the identity, a product into a zero accumulator is the plain sum over the
  contracted axis, and sums and products commute, so both programs compute the one function `Cert.Lstm.hNew` /
  `Cert.Lstm.cNew` of the seven arguments (Proof/LstmSpec.lean): the reference index by index through its stages
  (Proof/RefValue.lean), the kernel block by block (Proof/KernelBody.lean, the arithmetic at one index of a block;
  Proof/KernelBlock.lean, a block from the staged input blocks; Proof/KernelArrays.lean, the blocks put together).
  No finiteness of the inputs is used. The kernel read over the extended reals is the kernel's own text with no operation
  rewritten, so `preserves` has nothing to state.
-/
import proofs.«131256_j6365141533233_1_alg».proof.Defs
import proofs.«131256_j6365141533233_1_alg».proof.Proof.Gen.Kernel
import proofs.«131256_j6365141533233_1_alg».proof.Proof.Gen.Kernel.Skeleton
import proofs.«131256_j6365141533233_1_alg».proof.Proof.Gen.Kernel.Launch
import proofs.«131256_j6365141533233_1_alg».proof.Proof.Gen.Kernel.Points
import proofs.«131256_j6365141533233_1_alg».proof.Proof.Gen.Kernel.Frame
import proofs.«131256_j6365141533233_1_alg».proof.Proof.Gen.KernelIdeal
import proofs.«131256_j6365141533233_1_alg».proof.Proof.Gen.KernelIdeal.Skeleton
import proofs.«131256_j6365141533233_1_alg».proof.Proof.Gen.KernelIdeal.Launch
import proofs.«131256_j6365141533233_1_alg».proof.Proof.Gen.KernelIdeal.Points
import proofs.«131256_j6365141533233_1_alg».proof.Proof.Gen.KernelIdeal.Frame
import proofs.«131256_j6365141533233_1_alg».proof.Proof.Gen.ReferenceIdeal
import proofs.«131256_j6365141533233_1_alg».proof.Proof.Gen.Pre_finite_inputs
import proofs.«131256_j6365141533233_1_alg».proof.Proof.Gen.KernelIdeal.Value
import proofs.«131256_j6365141533233_1_alg».proof.Proof.Gen.ReferenceIdeal.Run
import proofs.«131256_j6365141533233_1_alg».proof.Proof.Gen.ReferenceIdeal.Read
import proofs.«131256_j6365141533233_1_alg».proof.Proof.LstmSpec
import proofs.«131256_j6365141533233_1_alg».proof.Proof.RefValue
import proofs.«131256_j6365141533233_1_alg».proof.Proof.KernelArrays
import Idealize.ShloMosaic.Adequacy
import Idealize.ShloMosaic.Init

noncomputable section

namespace Cert.Proof

open Idealize.ShloMosaic Idealize.ShloMosaic.TcCoe Idealize.SL.Sem Cert.Lstm

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the new hidden state and the new cell state of the LSTM cell of their (agreeing) arguments. -/
theorem algebraic : Cert.algebraic_KernelIdeal_ReferenceIdeal := by
  intro m ρ m' ρ' _ hagree
  refine ⟨fun c => hNew (Cert.KernelIdeal.Arrays.args m c), fun c => cNew (Cert.KernelIdeal.Arrays.args m c),
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v42_eq, Cert.ReferenceIdeal.RefValue.hidden_eq]
    unfold Cert.KernelIdeal.Arrays.args
    rw [(hagree c).1, (hagree c).2.1, (hagree c).2.2.1, (hagree c).2.2.2.1, (hagree c).2.2.2.2.1, (hagree c).2.2.2.2.2.1,
      (hagree c).2.2.2.2.2.2]
  · rw [Cert.ReferenceIdeal.Read.val_main_v40_eq, Cert.ReferenceIdeal.RefValue.cell_eq]
    unfold Cert.KernelIdeal.Arrays.args
    rw [(hagree c).1, (hagree c).2.1, (hagree c).2.2.1, (hagree c).2.2.2.1, (hagree c).2.2.2.2.1, (hagree c).2.2.2.2.2.1,
      (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
